-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S1000x512 : Shape := ⟨2, ![1000, 512]⟩
abbrev S131072 : Shape := ⟨1, ![131072]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg3 : IVec S131072 32) (main_v13 : IVec S_ 1) (main_v15 : IVec S131072 1) (main_c_5 : IVec S_ 32) : IVec S_ 1 :=
  let main_v16 : IVec S131072 32 := broadcastInDim S131072 ![] bcast_S_S131072 main_c_5
  let main_v17 : IVec S131072 1 := cmpi .slt main_arg3 main_v16
  let main_v18 : IVec S131072 1 := andi main_v15 main_v17
  let main_c_6 : IVec S_ 1 := constantI S_ 1 1#1
  let main_v19 : IVec S_ 1 := (fun x v => Host.reduce IntOp.andi x v reducesTo_S131072_S_d0 h_S_) main_v18 main_c_6
  let main_v20 : IVec S_ 1 := andi main_v13 main_v19
  main_v20

def fn {F : FTy → Type} [FloatOps F] (main_arg0 : FVec F S131072x1024 .f32) (main_arg1 : FVec F S131072x1024 .f32) (main_arg2 : FVec F S1000x512 .f32) (main_arg3 : IVec S131072 32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S131072x1024 .f32 := Host.absf main_arg1
  let main_cst_0 : FVec F S_ .f32 := constant S_ .f32 0x7F800000#32
  let main_v5 : FVec F S131072x1024 .f32 := broadcastInDim S131072x1024 ![] bcast_S_S131072x1024 main_cst_0
  let main_v6 : IVec S131072x1024 1 := cmpf .olt main_v4 main_v5
  let main_c_1 : IVec S_ 1 := constantI S_ 1 1#1
  let main_v7 : IVec S_ 1 := (fun x v => Host.reduce IntOp.andi x v reducesTo_S131072x1024_S_d0_1 h_S_) main_v6 main_c_1
  let main_v8 : IVec S_ 1 := andi main_v3 main_v7
  let main_v9 : FVec F S1000x512 .f32 := Host.absf main_arg2
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_c_4 : IVec S_ 32 := constantI S_ 32 0#32
  let main_v14 : IVec S131072 32 := broadcastInDim S131072 ![] bcast_S_S131072 main_c_4
  let main_v15 : IVec S131072 1 := cmpi .sge main_arg3 main_v14
  let main_c_5 : IVec S_ 32 := constantI S_ 32 1000#32
  fn_part1 (F := F) main_arg3 main_v13 main_v15 main_c_5
-- ==== Kernel.lean ====
abbrev S131072x1024 : Shape := ⟨2, ![131072, 1024]⟩
abbrev S1000x512 : Shape := ⟨2, ![1000, 512]⟩
abbrev S131072 : Shape := ⟨1, ![131072]⟩
abbrev S_ : Shape := ⟨0, ![]⟩
abbrev S1024x512 : Shape := ⟨2, ![1024, 512]⟩
abbrev S131072x1 : Shape := ⟨2, ![131072, 1]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 11
  | .vmem => 9
  | .smem => 0
  | _ => 0

abbrev bufTy : (tb : Table) → Fin (tcTables nBuf tb) → BufTy
  | .hbm, ⟨0, _⟩ => ⟨S131072x1024, .f32⟩
  | .hbm, ⟨1, _⟩ => ⟨S131072x1024, .f32⟩
  | .hbm, ⟨2, _⟩ => ⟨S1000x512, .f32⟩
  | .hbm, ⟨3, _⟩ => ⟨S131072, .i32⟩
  | .hbm, ⟨4, _⟩ => ⟨S1000x512, .bf16⟩
  | .hbm, ⟨5, _⟩ => ⟨S_, .i32⟩
  | .hbm, ⟨6, _⟩ => ⟨S_, .bf16⟩
  | .hbm, ⟨7, _⟩ => ⟨S1024x512, .bf16⟩
  | .hbm, ⟨8, _⟩ => ⟨S131072x1, .i32⟩
  | .hbm, ⟨9, _⟩ => ⟨S131072x1, .f32⟩
  | .hbm, ⟨10, _⟩ => ⟨S131072, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1, .i32⟩
  | .local _ .vmem, ⟨5, _⟩ => ⟨S1024x1, .i32⟩
  | .local _ .vmem, ⟨6, _⟩ => ⟨S1024x512, .bf16⟩
  | .local _ .vmem, ⟨7, _⟩ => ⟨S1024x1, .f32⟩
  | .local _ .vmem, ⟨8, _⟩ => ⟨S1024x1, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  pads_S1000x512_S1024x512_0240_000 : S1000x512.Pads (![0, 0] : Fin 2 → Nat) ![24, 0] ![0, 0] S1024x512
  h_S_ : 0 < S_.numel
  shapeCasts_S131072_S131072x1 : S131072.ShapeCasts S131072x1
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S1024x1024_o0_0_S1024x512 : S1024x1024.Slices ![0, 0] S1024x512
  slices_S1024x1024_o0_512_S1024x512 : S1024x1024.Slices ![0, 512] S1024x512
  reduces_S1024x512_S1024 : S1024x512.Reduces [1] S1024
  shapeCasts_S1024_S1024x1 : S1024.ShapeCasts S1024x1
  broadcasts_S1024x1_S1024x512 : S1024x1.Broadcasts S1024x512
  iota_S1024x1024_d1_w32 : S1024x1024.Iotas .tc 32 [1]
  broadcasts_S1024x1_S1024x1024 : S1024x1.Broadcasts S1024x1024
  natLt_1_32 : 1 < 32
  shapeCasts_S131072x1_S131072 : S131072x1.ShapeCasts S131072
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S131072x1024.size a
  hwx0_0 : ∀ i : grid0.Coords, EltTy.bits .f32 = 32 ∨ (Rect.block (s := S131072x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S131072x1024.size a
  hwx0_1 : ∀ i : grid0.Coords, EltTy.bits .f32 = 32 ∨ (Rect.block (s := S131072x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S131072x1.size a
  hwx0_2 : ∀ i : grid0.Coords, EltTy.bits .i32 = 32 ∨ (Rect.block (s := S131072x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S131072x1.size a
  hwx0_4 : ∀ i : grid0.Coords, EltTy.bits .f32 = 32 ∨ (Rect.block (s := S131072x1) S1024x1.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S1000x512 : Shape := ⟨2, ![1000, 512]⟩
abbrev S131072 : Shape := ⟨1, ![131072]⟩
abbrev S_ : Shape := ⟨0, ![]⟩
abbrev S131072x1 : Shape := ⟨2, ![131072, 1]⟩
abbrev S131072x512 : Shape := ⟨2, ![131072, 512]⟩

abbrev nBuf : Space → Nat
  | .hbm => 72
  | .vmem => 0
  | .smem => 0
  | _ => 0

abbrev bufTy : (tb : Table) → Fin (tcTables nBuf tb) → BufTy
  | .hbm, ⟨0, _⟩ => ⟨S131072x1024, .f32⟩
  | .hbm, ⟨1, _⟩ => ⟨S131072x1024, .f32⟩
  | .hbm, ⟨2, _⟩ => ⟨S1000x512, .f32⟩
  | .hbm, ⟨3, _⟩ => ⟨S131072, .i32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S131072x512, .f32⟩
  | .hbm, ⟨13, _⟩ => ⟨S131072x512, .f32⟩
  | .hbm, ⟨14, _⟩ => ⟨S131072x512, .f32⟩
  | .hbm, ⟨15, _⟩ => ⟨S131072x512, .f32⟩
  | .hbm, ⟨16, _⟩ => ⟨S131072x512, .f32⟩
  | .hbm, ⟨17, _⟩ => ⟨S131072x512, .f32⟩
  | .hbm, ⟨18, _⟩ => ⟨S_, .f32⟩
  | .hbm, ⟨19, _⟩ => ⟨S131072, .f32⟩
  | .hbm, ⟨20, _⟩ => ⟨S131072x1, .f32⟩
  | .hbm, ⟨21, _⟩ => ⟨S131072x1, .f32⟩
  | .hbm, ⟨22, _⟩ => ⟨S_, .f32⟩
  | .hbm, ⟨23, _⟩ => ⟨S131072x1, .f32⟩
  | .hbm, ⟨24, _⟩ => ⟨S131072x1, .f32⟩
  | .hbm, ⟨25, _⟩ => ⟨S131072x512, .f32⟩
  | .hbm, ⟨26, _⟩ => ⟨S131072x512, .f32⟩
  | .hbm, ⟨27, _⟩ => ⟨S131072x512, .f32⟩
  | .hbm, ⟨28, _⟩ => ⟨S_, .f32⟩
  | .hbm, ⟨29, _⟩ => ⟨S131072, .f32⟩
  | .hbm, ⟨30, _⟩ => ⟨S131072x1, .f32⟩
  | .hbm, ⟨31, _⟩ => ⟨S131072x1, .f32⟩
  | .hbm, ⟨32, _⟩ => ⟨S_, .f32⟩
  | .hbm, ⟨33, _⟩ => ⟨S131072x1, .f32⟩
  | .hbm, ⟨34, _⟩ => ⟨S131072x1, .f32⟩
  | .hbm, ⟨35, _⟩ => ⟨S131072x512, .f32⟩
  | .hbm, ⟨36, _⟩ => ⟨S131072x512, .f32⟩
  | .hbm, ⟨37, _⟩ => ⟨S131072x512, .f32⟩
  | .hbm, ⟨38, _⟩ => ⟨S_, .f32⟩
  | .hbm, ⟨39, _⟩ => ⟨S131072, .f32⟩
  | .hbm, ⟨40, _⟩ => ⟨S131072x1, .f32⟩
  | .hbm, ⟨41, _⟩ => ⟨S131072x1, .f32⟩
  | .hbm, ⟨42, _⟩ => ⟨S_, .f32⟩
  | .hbm, ⟨43, _⟩ => ⟨S131072x1, .f32⟩
  | .hbm, ⟨44, _⟩ => ⟨S131072x1, .f32⟩
  | .hbm, ⟨45, _⟩ => ⟨S131072x512, .f32⟩
  | .hbm, ⟨46, _⟩ => ⟨S131072x512, .f32⟩
  | .hbm, ⟨47, _⟩ => ⟨S131072x512, .f32⟩
  | .hbm, ⟨48, _⟩ => ⟨S_, .f32⟩
  | .hbm, ⟨49, _⟩ => ⟨S131072, .f32⟩
  | .hbm, ⟨50, _⟩ => ⟨S131072x1, .f32⟩
  | .hbm, ⟨51, _⟩ => ⟨S131072x1, .f32⟩
  | .hbm, ⟨52, _⟩ => ⟨S_, .f32⟩
  | .hbm, ⟨53, _⟩ => ⟨S131072x1, .f32⟩
  | .hbm, ⟨54, _⟩ => ⟨S131072x1, .f32⟩
  | .hbm, ⟨55, _⟩ => ⟨S131072x512, .f32⟩
  | .hbm, ⟨56, _⟩ => ⟨S131072x512, .f32⟩
  | .hbm, ⟨57, _⟩ => ⟨S_, .f32⟩
  | .hbm, ⟨58, _⟩ => ⟨S131072x512, .f32⟩
  | .hbm, ⟨59, _⟩ => ⟨S131072x512, .f32⟩
  | .hbm, ⟨60, _⟩ => ⟨S131072x512, .f32⟩
  | .hbm, ⟨61, _⟩ => ⟨S131072x512, .f32⟩
  | .hbm, ⟨62, _⟩ => ⟨S_, .f32⟩
  | .hbm, ⟨63, _⟩ => ⟨S131072x512, .f32⟩
  | .hbm, ⟨64, _⟩ => ⟨S131072x512, .f32⟩
  | .hbm, ⟨65, _⟩ => ⟨S131072x512, .f32⟩
  | .hbm, ⟨66, _⟩ => ⟨S131072x512, .f32⟩
  | .hbm, ⟨67, _⟩ => ⟨S131072x512, .f32⟩
  | .hbm, ⟨68, _⟩ => ⟨S_, .f32⟩
  | .hbm, ⟨69, _⟩ => ⟨S131072, .f32⟩
  | .hbm, ⟨70, _⟩ => ⟨S131072, .f32⟩
  | .hbm, ⟨71, _⟩ => ⟨S131072, .f32⟩
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  slices_S131072x1024_S131072x512_0_0 : S131072x1024.Slices ![0, 0] S131072x512
  slices_S131072x1024_S131072x512_0_512 : S131072x1024.Slices ![0, 512] S131072x512
  reducesTo_S131072x512_S131072_d1 : S131072x512.ReducesTo [1] S131072
  h_S_ : 0 < S_.numel
  bcast_S_S131072x1 : S_.BroadcastsInDim S131072x1 (![] : Fin 0 → Fin S131072x1.rank)
  bcast_S131072x1_S131072x512_0_1 : S131072x1.BroadcastsInDim S131072x512 (![0, 1] : Fin 2 → Fin S131072x512.rank)
  bcast_S_S131072x512 : S_.BroadcastsInDim S131072x512 (![] : Fin 0 → Fin S131072x512.rank)
  gather_S1000x512_S131072x1_S131072x512_1_0_n_n_0_1_1512_wf : GatherDims.WF S1000x512 S131072x1 S131072x512 [1] [0] [] [0] [] 1 ![1, 512]

variable [Facts₀]

def gather_S1000x512_S131072x1_S131072x512_1_0_n_n_0_1_1512 : GatherDims S1000x512 S131072x1 S131072x512 where
  offsetDims := [1]
  collapsedSliceDims := [0]
  operandBatchingDims := []
  startIndicesBatchingDims := []
  startIndexMap := [0]
  indexVectorDim := 1
  sliceSizes := ![1, 512]
  wf := gather_S1000x512_S131072x1_S131072x512_1_0_n_n_0_1_1512_wf

class Facts : Prop extends Facts₀ where

variable [Facts]
-- ==== Proof.Domain.lean ====
/-
  The precondition, read back: every entry of the index vector, read as a signed integer, lies in 0 .. 999.

  The precondition is a conjunction of four whole-array tests; the last is the conjunction, over every entry w of
  the index vector, of 0 ≤ w and w < 1000 as signed comparisons. A conjunction over all entries that comes out
  true is true at each entry.
-/
import proofs.«425691_j19370302505589_1_alg».proof.Pre_finite_inputs
import Idealize.ShloMosaic.Lib.ReduceAll
import Idealize.ShloMosaic.Lib.ValueIdx
import Idealize.ShloMosaic.Lib.Pipeline.Value

noncomputable section

namespace Cert.Domain

open Idealize.ShloMosaic Idealize.ShloMosaic.ValueIdx Cert.Pre_finite_inputs

variable [hF : Cert.Pre_finite_inputs.Facts]

/-- A scalar spread over a vector reads the scalar. -/
theorem spread_scalar (b : BitVec 32) (r : Fin 131072) :
    broadcastInDim S131072 ![] Facts.bcast_S_S131072 (constantI S_ 32 b) (ix1 r) = b :=
  broadcastInDim_apply _ Facts.bcast_S_S131072 (constantI S_ 32 b) (ix1 r) ix0 (fun a => a.elim0)

/-- Under the precondition every index is in range. -/
theorem index_range {F : FTy → Type} [FloatOps F] (a0 a1 : FVec F S131072x1024 .f32) (a2 : FVec F S1000x512 .f32)
    (a3 : IVec S131072 32) (h : fn (F := F) a0 a1 a2 a3 = fun _ => 1#1) (r : Fin 131072) :
    0 ≤ (a3 (ix1 r)).toInt ∧ (a3 (ix1 r)).toInt < 1000 := by
  have h0 := congrFun h ix0
  dsimp only [fn, fn_part1] at h0
  obtain ⟨-, h19⟩ := IntOp.andi_eq_one.1 h0
  haveI : Subsingleton S_.Idx := ⟨fun a b => funext fun d => d.elim0⟩
  have h18 := Host.reduce_andi_all _ _ _ _ _ h19 (ix1 r)
  obtain ⟨hge, hlt⟩ := IntOp.andi_eq_one.1 h18
  have hge' := IntOp.cmpi_sge.1 hge
  have hlt' := IntOp.cmpi_slt.1 hlt
  rw [spread_scalar] at hge' hlt'
  exact ⟨by simpa using hge', by simpa using hlt'⟩

end Cert.Domain

end
-- ==== Proof.Score.lean ====
/-
  The score of one triple, as a function of its head row, its tail row and its relation row, over the
  extended reals.

  A row of 1024 entries splits into a main half (entries 0 .. 511) and an auxiliary half (entries 512 .. 1023).
  Each half is divided by its Euclidean length, the length clamped below by a small positive word. With hm, ha
  the head's two normalised halves, tm, ta the tail's and rel the relation row, the difference vector is
  d = hm * (ta + 1) + rel - tm * (ha + 1), entry by entry, and the score is minus the length of d.

  Also here: a sum over 1024 positions of an indicator times f k selects f at the indicated position, since 0
  annihilates and 1 is neutral for the product of extended reals, infinite factors included.
-/
import Idealize.ShloMosaic.PureOps.Ideal.Laws
import Idealize.ShloMosaic.Lib.ValueIdx

noncomputable section

namespace Cert.Score

open Idealize.ShloMosaic
open scoped BigOperators

/-- The clamp under a length: the word of 1e-12 in single precision. -/
abbrev tiny : EReal := Ideal.ofBits .f32 0x2B8CBCCC#32
/-- The offset added to an auxiliary half: the word of 1. -/
abbrev one : EReal := Ideal.ofBits .f32 0x3F800000#32

/-- The main half of a row. -/
def lo (x : Fin 1024 → EReal) : Fin 512 → EReal := fun k => x ⟨k.val, by have := k.isLt; omega⟩
/-- The auxiliary half of a row. -/
def hi (x : Fin 1024 → EReal) : Fin 512 → EReal := fun k => x ⟨512 + k.val, by have := k.isLt; omega⟩

/-- A half row divided by its clamped Euclidean length. -/
def unit (v : Fin 512 → EReal) (j : Fin 512) : EReal :=
  Ideal.div (v j) (max (Ideal.sqrt (∑ k : Fin 512, v k * v k)) tiny)

/-- One entry of the difference vector from the five entries it combines. -/
def comb (hm ta rel tm ha : EReal) : EReal := hm * (ta + one) + rel - tm * (ha + one)

/-- The difference vector of a triple. -/
def diff (h t : Fin 1024 → EReal) (rel : Fin 512 → EReal) (j : Fin 512) : EReal :=
  comb (unit (lo h) j) (unit (hi t) j) (rel j) (unit (lo t) j) (unit (hi h) j)

/-- The score of a triple: minus the Euclidean length of its difference vector. -/
def score (h t : Fin 1024 → EReal) (rel : Fin 512 → EReal) : EReal :=
  -(Ideal.sqrt (∑ j : Fin 512, diff h t rel j * diff h t rel j))

/-- The table position an index word names: its signed value, clamped into 0 .. 999. -/
def pos (w : BitVec 32) : Fin 1000 := ⟨min w.toInt.toNat 999, by omega⟩

/-- An index word whose signed value is in 0 .. 999 is the word of the position it names. -/
theorem word_pos (w : BitVec 32) (h0 : 0 ≤ w.toInt) (h1 : w.toInt < 1000) : w = BitVec.ofNat 32 (pos w).val := by
  have htn : w.toInt.toNat = w.toNat := by
    have := BitVec.toInt_eq_toNat_cond w
    split at this <;> omega
  have hp : (pos w).val = w.toNat := by
    show min w.toInt.toNat 999 = w.toNat
    omega
  rw [hp, BitVec.ofNat_toNat, BitVec.setWidth_eq]

/-- THE RESULT at triple r: the score of head row r, tail row r and the table row the r-th index names. -/
def rowScore (head tail : (⟨2, ![131072, 1024]⟩ : Shape).Idx → EReal) (table : (⟨2, ![1000, 512]⟩ : Shape).Idx → EReal)
    (idx : (⟨1, ![131072]⟩ : Shape).Idx → BitVec 32) (r : Fin 131072) : EReal :=
  score (fun k => head (ValueIdx.ix2 r k)) (fun k => tail (ValueIdx.ix2 r k))
    (fun j => table (ValueIdx.ix2 (pos (idx (ValueIdx.ix1 r))) j))

/-- The indicator that a word is the word of position k, widened to 32 bits and read as a signed number. -/
theorem indicator (w : BitVec 32) (k : Fin 1024) :
    ((((IntOp.cmpi .eq w (BitVec.ofNat 32 k.val)).setWidth 32).toInt : ℝ) : EReal)
      = if w = BitVec.ofNat 32 k.val then 1 else 0 := by
  by_cases h : w = BitVec.ofNat 32 k.val
  · rw [if_pos h]
    have : IntOp.cmpi .eq w (BitVec.ofNat 32 k.val) = 1#1 := by simp [IntOp.cmpi, h]
    rw [this]; norm_num
  · rw [if_neg h]
    have : IntOp.cmpi .eq w (BitVec.ofNat 32 k.val) = 0#1 := by
      simp [IntOp.cmpi, beq_eq_false_iff_ne.mpr h]
    rw [this]; norm_num

/-- Two positions below 1024 with the same 32-bit word are the same position. -/
theorem word_inj {k r : Fin 1024} (h : BitVec.ofNat 32 r.val = BitVec.ofNat 32 k.val) : r = k := by
  have hk := k.isLt; have hr := r.isLt
  have := congrArg BitVec.toNat h
  simp only [BitVec.toNat_ofNat] at this
  exact Fin.ext (by omega)

/-- A row selected by a one-hot row: the sum over the positions of the indicator of position r times f. -/
theorem sum_onehot (f : Fin 1024 → EReal) (r : Fin 1024) :
    ∑ k : Fin 1024, ((((IntOp.cmpi .eq (BitVec.ofNat 32 r.val) (BitVec.ofNat 32 k.val)).setWidth 32).toInt : ℝ) : EReal) * f k
      = f r := by
  rw [Finset.sum_eq_single r]
  · rw [indicator, if_pos rfl, one_mul]
  · intro k _ hk
    rw [indicator, if_neg (fun e => hk (word_inj e).symm), zero_mul]
  · intro h; exact absurd (Finset.mem_univ r) h

end Cert.Score

end
-- ==== Proof.LibContract.lean ====
/-
  Two reads at an index over the extended reals, for matrices laid out as [rows, columns]: a matrix-unit product
  into a zero accumulator, and the host's contraction.
-/
import Idealize.ShloMosaic.PureOps.Ideal.Laws
import Idealize.ShloMosaic.Lib.ValueIdx

noncomputable section

namespace Cert.LibContract

open Idealize.ShloMosaic Idealize.ShloMosaic.ValueIdx
open scoped BigOperators

/-- The dimension numbers `[1] × [0]`, kept axes `[0]` and `[1]`, no batch axes, over any proof that they are
    well formed. -/
private abbrev lit {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable {M K N : ℕ} (wf : DotDims.WF ⟨2, ![M, K]⟩ ⟨2, ![K, N]⟩ ⟨2, ![M, N]⟩ [1] [0] [0] [1] [] [])

/-- The left operand's kept axis reads the result's row. -/
private theorem lhs_0 (i : (⟨2, ![M, N]⟩ : Shape).Idx) (q : (lit wf).contr.Idx) :
    ((lit wf).lhsIdx i q 0).val = (i 0).val := by
  unfold DotDims.lhsIdx
  rw [dif_neg (show ¬(0 : Fin (⟨2, ![M, K]⟩ : Shape).rank) ∈ (lit wf).lhsBatch from List.not_mem_nil),
    dif_pos (show (0 : Fin (⟨2, ![M, K]⟩ : Shape).rank) ∈ (lit wf).lhsNonContracting from List.mem_singleton.mpr rfl)]
  rfl

/-- The left operand's contracted axis reads the contraction position. -/
private theorem lhs_1 (i : (⟨2, ![M, N]⟩ : Shape).Idx) (q : (lit wf).contr.Idx) :
    ((lit wf).lhsIdx i q 1).val = (q ⟨0, Nat.one_pos⟩).val :=
  (lit wf).lhsIdx_val_of_single rfl i q

/-- The right operand's contracted axis reads the contraction position. -/
private theorem rhs_0 (i : (⟨2, ![M, N]⟩ : Shape).Idx) (q : (lit wf).contr.Idx) :
    ((lit wf).rhsIdx i q 0).val = (q ⟨0, Nat.one_pos⟩).val :=
  (lit wf).rhsIdx_val_of_single rfl i q

/-- The right operand's kept axis reads the result's column. -/
private theorem rhs_1 (i : (⟨2, ![M, N]⟩ : Shape).Idx) (q : (lit wf).contr.Idx) :
    ((lit wf).rhsIdx i q 1).val = (i 1).val := by
  unfold DotDims.rhsIdx
  rw [dif_neg (show ¬(1 : Fin (⟨2, ![K, N]⟩ : Shape).rank) ∈ (lit wf).rhsBatch from List.not_mem_nil),
    dif_pos (show (1 : Fin (⟨2, ![K, N]⟩ : Shape).rank) ∈ (lit wf).rhsNonContracting from List.mem_singleton.mpr rfl)]
  rfl

/-- The contraction's sum over its one-axis index set is the sum over `Fin K`, the operands read at (r, k) and
    (k, j): re-index through the bijection of the one-axis index set with `Fin K`, then compare the operand
    indices axis by axis. -/
private theorem contr_lit {φ₁ φ₂ : FTy} (lhs : FVec Ideal ⟨2, ![M, K]⟩ φ₁) (rhs : FVec Ideal ⟨2, ![K, N]⟩ φ₂)
    (r : Fin M) (j : Fin N) :
    ∑ k : (lit wf).contr.Idx, lhs ((lit wf).lhsIdx (ix2 r j) k) * rhs ((lit wf).rhsIdx (ix2 r j) k)
      = ∑ k : Fin K, lhs (ix2 r k) * rhs (ix2 k j) := by
  rw [← Equiv.sum_comp (ValueIdx.contrEquiv1 (lit wf) K rfl rfl).symm]
  refine Finset.sum_congr rfl fun k _ => ?_
  have hk := ValueIdx.contrEquiv1_symm_val (lit wf) K rfl rfl k
  have el : (lit wf).lhsIdx (ix2 r j) ((ValueIdx.contrEquiv1 (lit wf) K rfl rfl).symm k) = ix2 r k :=
    funext fun a => Fin.ext (by
      match a with
      | ⟨0, _⟩ => exact lhs_0 wf _ _
      | ⟨1, _⟩ => exact (lhs_1 wf _ _).trans hk)
  have er : (lit wf).rhsIdx (ix2 r j) ((ValueIdx.contrEquiv1 (lit wf) K rfl rfl).symm k) = ix2 k j :=
    funext fun a => Fin.ext (by
      match a with
      | ⟨0, _⟩ => exact (rhs_0 wf _ _).trans hk
      | ⟨1, _⟩ => exact rhs_1 wf _ _)
  rw [el, er]

end Axes

/-- The same for any dimension numbers whose six lists are those: the record is then that literal one. -/
private theorem contr_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ φ₁) (rhs : FVec Ideal ⟨2, ![K, N]⟩ φ₂) (r : Fin M) (j : Fin N) :
    ∑ k : d.contr.Idx, lhs (d.lhsIdx (ix2 r j) k) * rhs (d.rhsIdx (ix2 r j) k)
      = ∑ k : Fin K, lhs (ix2 r k) * rhs (ix2 k j) := by
  obtain ⟨lc, rc, ln, rn, lb, rb, wf⟩ := d
  simp only at hlc hrc hln hrn hlb hrb
  subst hlc hrc hln hrn hlb hrb
  exact contr_lit wf lhs rhs r j

/-- The product of an [M, K] by a [K, N] matrix (contraction of the left operand's axis 1 with the right
    operand's axis 0, no batch axes), accumulated into zeros and read at (r, j): `∑ k, lhs (r, k) · rhs (k, j)`. -/
theorem matmul_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    matmul d prec lhs rhs (constant ⟨2, ![M, N]⟩ .f32 0x00000000#32) (ix2 r j)
      = ∑ k : Fin K, lhs (ix2 r k) * rhs (ix2 k j) := by
  simp only [matmul]
  rw [Ideal.matmul_constant_zero_apply]
  exact contr_plain d hlc hrc hln hrn hlb hrb lhs rhs r j

/-- The host's contraction of the same layout, read at (r, j): the same sum. -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (j : Fin N) :
    Host.dotGeneral d prec lhs rhs (ix2 r j) = ∑ k : Fin K, lhs (ix2 r k) * rhs (ix2 k j) := by
  simp only [Host.dotGeneral]
  rw [Ideal.dotGeneral_apply]
  exact contr_plain d hlc hrc hln hrn hlb hrb lhs rhs r j

end Cert.LibContract

end
-- ==== Proof.Body.lean ====
/-
  What the kernel's body stores for one row of its block.

  The body loads a block of 1024 head rows, 1024 tail rows, 1024 relation indices and the whole padded relation
  table, and stores one number per row. Row p of the stored column is the score of the triple made of head row
  p, tail row p and the table row selected by index p: the selection is a product of a one-hot row (the
  indicator that the index equals the position, over the 1024 positions) with the table, which is the table
  row at the index whenever the index is the word of a position.
-/
import proofs.«425691_j19370302505589_1_alg».proof.Proof.Gen.KernelIdeal.Frame
import proofs.«425691_j19370302505589_1_alg».proof.Proof.Score
import proofs.«425691_j19370302505589_1_alg».proof.Proof.LibContract
import Idealize.ShloMosaic.PureOps.Ideal.Laws
import Idealize.ShloMosaic.Lib.ValueIdx
import Idealize.ShloMosaic.Lib.Pipeline.Value

noncomputable section

namespace Cert.KernelIdeal.Body

open Idealize.ShloMosaic Idealize.ShloMosaic.ValueIdx Cert.KernelIdeal Cert.KernelIdeal.Gen
open scoped BigOperators

/-- The index a lane sum inserts: row p, lane k. -/
theorem lift_eq (hr : S1024x512.Reduces [1] S1024) (p : Fin 1024) (k : Fin 512) :
    hr.lift (ix1 p) k = ix2 p k :=
  funext fun a => Fin.ext (by match a with | ⟨0, _⟩ => rfl | ⟨1, _⟩ => rfl)

/-- The sum of squares along a row, kept as a column: entry (p, 0) is the sum over the 512 lanes of row p. -/
theorem sumsq_apply (d : FVec Ideal S1024x512 .f32) (hr : S1024x512.Reduces [1] S1024) (hφ : FKind.Formats .f32)
    (hacc : (0x00000000#32 : BitVec 32) = FKind.add.neutral .f32 hφ) (hc : S1024.ShapeCasts S1024x1) (p : Fin 1024) :
    shapeCast S1024x1 (multiReduction .add [1] S1024 (mulf d d) 0x00000000#32 hr hφ hacc) hc (ix2 p (0 : Fin 1))
      = ∑ k : Fin 512, d (ix2 p k) * d (ix2 p k) := by
  refine (shapeCast_apply _ hc (ix2 p (0 : Fin 1)) (ix1 p) (by
    rw [Shape.rowMajor_val_one, Shape.rowMajor_val_two]; show p.val = p.val * 1 + 0; omega)).trans ?_
  refine (Ideal.multiReduction_add_single (mulf d d) 0x00000000#32 hr hφ hacc (ix1 p)).trans ?_
  refine Finset.sum_congr rfl fun k _ => ?_
  rw [lift_eq hr p k]
  rfl

/-- A column spread over the 512 lanes reads the column's entry of the same row. -/
theorem spread_apply (w : FVec Ideal S1024x1 .f32) (hb : S1024x1.Broadcasts S1024x512) (p : Fin 1024) (j : Fin 512) :
    broadcastTo S1024x512 w hb (ix2 p j) = w (ix2 p (0 : Fin 1)) :=
  broadcastTo_apply w hb (ix2 p j) (ix2 p (0 : Fin 1)) (fun a => by
    match a with
    | ⟨0, _⟩ => show p.val = if (1024 : Nat) = 1 then 0 else p.val; rw [if_neg (by decide)]
    | ⟨1, _⟩ => show 0 = if (1 : Nat) = 1 then 0 else j.val; rw [if_pos rfl])

/-- A half block divided by its rows' clamped lengths: entry (p, j) is the normalised half row p at j. -/
theorem unit_apply (v : FVec Ideal S1024x512 .f32) (hr : S1024x512.Reduces [1] S1024) (hφ : FKind.Formats .f32)
    (hacc : (0x00000000#32 : BitVec 32) = FKind.add.neutral .f32 hφ) (hc : S1024.ShapeCasts S1024x1)
    (hb : S1024x1.Broadcasts S1024x512) (p : Fin 1024) (j : Fin 512) :
    divf v (broadcastTo S1024x512 (maximumf (sqrt (shapeCast S1024x1
        (multiReduction .add [1] S1024 (mulf v v) 0x00000000#32 hr hφ hacc) hc))
        (broadcast S1024x1 (FloatOps.ofBits .f32 0x2B8CBCCC#32))) hb) (ix2 p j)
      = Score.unit (fun k => v (ix2 p k)) j := by
  show Ideal.div (v (ix2 p j)) (broadcastTo S1024x512 _ hb (ix2 p j)) = _
  rw [spread_apply]
  show Ideal.div (v (ix2 p j)) (max (Ideal.sqrt (shapeCast S1024x1 _ hc (ix2 p (0 : Fin 1)))) Score.tiny) = _
  rw [sumsq_apply v hr hφ hacc hc p]
  rfl

/-- The main half of a block, entry (p, j): lane j of row p. -/
theorem lo_apply (x : FVec Ideal S1024x1024 .f32) (hs : S1024x1024.Slices ![0, 0] S1024x512) (p : Fin 1024) :
    (fun k => extractStridedSlice S1024x512 ![0, 0] x hs (ix2 p k)) = Score.lo (fun k => x (ix2 p k)) := by
  funext k
  exact extractStridedSlice_apply ![0, 0] x hs (ix2 p k) (ix2 p ⟨k.val, by have := k.isLt; omega⟩) (fun a => by
    match a with
    | ⟨0, _⟩ => show p.val = 0 + p.val; omega
    | ⟨1, _⟩ => show k.val = 0 + k.val; omega)

/-- The auxiliary half of a block, entry (p, j): lane 512 + j of row p. -/
theorem hi_apply (x : FVec Ideal S1024x1024 .f32) (hs : S1024x1024.Slices ![0, 512] S1024x512) (p : Fin 1024) :
    (fun k => extractStridedSlice S1024x512 ![0, 512] x hs (ix2 p k)) = Score.hi (fun k => x (ix2 p k)) := by
  funext k
  exact extractStridedSlice_apply ![0, 512] x hs (ix2 p k) (ix2 p ⟨512 + k.val, by have := k.isLt; omega⟩) (fun a => by
    match a with
    | ⟨0, _⟩ => show p.val = 0 + p.val; omega
    | ⟨1, _⟩ => show 512 + k.val = 512 + k.val; rfl)

/-- The head's normalised main half, entry (p, j). -/
theorem pay4_apply (x : FVec Ideal S1024x1024 .f32) (p : Fin 1024) (j : Fin 512) :
    k0_pay4 (F := Ideal) x (ix2 p j) = Score.unit (Score.lo fun k => x (ix2 p k)) j := by
  unfold k0_pay4
  refine (unit_apply _ _ _ _ _ _ p j).trans ?_
  rw [lo_apply]

/-- The tail's normalised main half, entry (p, j). -/
theorem pay5_apply (x : FVec Ideal S1024x1024 .f32) (p : Fin 1024) (j : Fin 512) :
    k0_pay5 (F := Ideal) x (ix2 p j) = Score.unit (Score.lo fun k => x (ix2 p k)) j := by
  unfold k0_pay5
  refine (unit_apply _ _ _ _ _ _ p j).trans ?_
  rw [lo_apply]

/-- The head's normalised auxiliary half, entry (p, j). -/
theorem pay6_apply (x : FVec Ideal S1024x1024 .f32) (p : Fin 1024) (j : Fin 512) :
    k0_pay6 (F := Ideal) x (ix2 p j) = Score.unit (Score.hi fun k => x (ix2 p k)) j := by
  unfold k0_pay6
  refine (unit_apply _ _ _ _ _ _ p j).trans ?_
  rw [hi_apply]

/-- The tail's normalised auxiliary half, entry (p, j). -/
theorem pay7_apply (x : FVec Ideal S1024x1024 .f32) (p : Fin 1024) (j : Fin 512) :
    k0_pay7 (F := Ideal) x (ix2 p j) = Score.unit (Score.hi fun k => x (ix2 p k)) j := by
  unfold k0_pay7
  refine (unit_apply _ _ _ _ _ _ p j).trans ?_
  rw [hi_apply]

/-- The one-hot row of row p against the table, entry (p, j): where the index of row p is the word of position r,
    the product of the indicator row with the table is the table's row r. -/
theorem select_apply (v3 : IVec S1024x1 32) (v5 : FVec Ideal S1024x512 .bf16)
    (hb : S1024x1.Broadcasts S1024x1024) (hi : S1024x1024.Iotas .tc 32 [1]) (h32 : 1 < 32) (hlt : FTy.bits .bf16 < FTy.bits .f32)
    (p r : Fin 1024) (hr : v3 (ix2 p (0 : Fin 1)) = BitVec.ofNat 32 r.val) (j : Fin 512) :
    matmul dot_S1024x1024_S1024x512_S1024x512_1_0_0_1_n_n none
        (truncf .bf16 (sitofp .f32 (extui 32 (cmpi .eq (broadcastTo S1024x1024 v3 hb) (iota .tc S1024x1024 32 [1] hi)) h32)) hlt)
        v5 (constant S1024x512 .f32 0x00000000#32) (ix2 p j)
      = v5 (ix2 r j) := by
  refine (Cert.LibContract.matmul_plain dot_S1024x1024_S1024x512_S1024x512_1_0_0_1_n_n rfl rfl rfl rfl rfl rfl none _ v5 p j).trans ?_
  refine Eq.trans (Finset.sum_congr rfl fun k _ => ?_) (Score.sum_onehot (fun k => v5 (ix2 k j)) r)
  have e1 : broadcastTo S1024x1024 v3 hb (ix2 p k) = BitVec.ofNat 32 r.val :=
    (broadcastTo_apply v3 hb (ix2 p k) (ix2 p (0 : Fin 1)) (fun a => by
      match a with
      | ⟨0, _⟩ => show p.val = if (1024 : Nat) = 1 then 0 else p.val; rw [if_neg (by decide)]
      | ⟨1, _⟩ => show 0 = if (1 : Nat) = 1 then 0 else k.val; rw [if_pos rfl])).trans hr
  have e2 : iota .tc S1024x1024 32 [1] hi (ix2 p k) = BitVec.ofNat 32 k.val :=
    iota_single_apply .tc S1024x1024 32 1 hi (ix2 p k)
  show ((((IntOp.cmpi .eq (broadcastTo S1024x1024 v3 hb (ix2 p k)) (iota .tc S1024x1024 32 [1] hi (ix2 p k))).setWidth 32).toInt : ℝ) : EReal)
      * v5 (ix2 k j) = _
  rw [e1, e2]

/-- The store's payload at row p: minus the length of the difference vector built from the four normalised
    half rows and the selected table row. -/
theorem pay1_apply (v3 : IVec S1024x1 32) (v5 : FVec Ideal S1024x512 .bf16) (v17 v25 v33 v41 : FVec Ideal S1024x512 .f32)
    (p r : Fin 1024) (hr : v3 (ix2 p (0 : Fin 1)) = BitVec.ofNat 32 r.val) :
    k0_pay1 (F := Ideal) v3 v5 v17 v25 v33 v41 (iota .tc S1024x1024 32 [1] iota_S1024x1024_d1_w32) (ix2 p (0 : Fin 1))
      = -(Ideal.sqrt (∑ j : Fin 512,
          Score.comb (v17 (ix2 p j)) (v41 (ix2 p j)) (v5 (ix2 r j)) (v25 (ix2 p j)) (v33 (ix2 p j))
            * Score.comb (v17 (ix2 p j)) (v41 (ix2 p j)) (v5 (ix2 r j)) (v25 (ix2 p j)) (v33 (ix2 p j)))) := by
  unfold k0_pay1
  refine Eq.trans (congrArg (fun s => Ideal.ofBits .f32 0x00000000#32 - Ideal.sqrt s) (sumsq_apply _ _ _ _ _ p)) ?_
  show Ideal.ofBits .f32 0x00000000#32 - Ideal.sqrt _ = _
  rw [Ideal.ofBits_zero_f32, zero_sub]
  refine congrArg (fun s => -(Ideal.sqrt s)) (Finset.sum_congr rfl fun j _ => ?_)
  have e : ∀ (a b c d e' : EReal), a * (b + Score.one) + c - d * (e' + Score.one) = Score.comb a b c d e' := fun _ _ _ _ _ => rfl
  have hsel := select_apply v3 v5 broadcasts_S1024x1_S1024x1024 iota_S1024x1024_d1_w32 natLt_1_32 bitsLt_bf16_f32 p r hr j
  show (v17 (ix2 p j) * (v41 (ix2 p j) + Score.one) + matmul _ none _ v5 _ (ix2 p j) - v25 (ix2 p j) * (v33 (ix2 p j) + Score.one))
      * (v17 (ix2 p j) * (v41 (ix2 p j) + Score.one) + matmul _ none _ v5 _ (ix2 p j) - v25 (ix2 p j) * (v33 (ix2 p j) + Score.one)) = _
  rw [hsel]
  rfl

/-- The zero offsets, spelt as a function. -/
theorem hz2 : (![0, 0] : Fin 2 → Nat) = fun _ => 0 := funext fun a => by fin_cases a <;> rfl

/-- THE STORED COLUMN at row p: where the index of row p is the word of position r, the score of head row p, tail
    row p and table row r. -/
theorem out_apply (x0 x1 : Vec Ideal S1024x1024 .f32) (x2 : Vec Ideal S1024x1 .i32) (x3 : Vec Ideal S1024x512 .bf16)
    (p r : Fin 1024) (hr : x2 (ix2 p (0 : Fin 1)) = BitVec.ofNat 32 r.val) :
    out0_4 (F := Ideal) x0 x1 x2 x3 (ix2 p (0 : Fin 1))
      = Score.score (fun k => x0 (ix2 p k)) (fun k => x1 (ix2 p k)) (fun j => x3 (ix2 r j)) := by
  unfold out0_4
  rw [View.canon_unit_zero hz2]
  simp only [View.ld_unit_zero (S := S1024x1024) hz2, View.ld_unit_zero (S := S1024x1) hz2, View.ld_unit_zero (S := S1024x512) hz2]
  unfold k0_pay2 k0_pay3
  rw [shapeCast_self, shapeCast_self]
  refine (pay1_apply x2 x3 _ _ _ _ p r hr).trans ?_
  unfold Score.score Score.diff
  refine congrArg (fun s => -(Ideal.sqrt s)) (Finset.sum_congr rfl fun j _ => ?_)
  rw [pay4_apply, pay5_apply, pay6_apply, pay7_apply]

end Cert.KernelIdeal.Body

end
-- ==== Proof.Entry.lean ====
/-
  What the region finds in the two arrays the host prepares before it.

  The relation table is re-typed to a narrower float format (the identity on extended reals) and padded below
  with 24 rows of the number the integer 0 converts to: its first 1000 rows are the argument table's rows. The
  index vector is viewed as a column: row r of the column is entry r of the vector.
-/
import proofs.«425691_j19370302505589_1_alg».proof.Proof.Gen.KernelIdeal.Frame
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StableHlo.Run

noncomputable section

namespace Cert.KernelIdeal.Entry

open Idealize.ShloMosaic Idealize.ShloMosaic.ValueIdx Cert.KernelIdeal Cert.KernelIdeal.Gen Idealize.SL.Sem
open Idealize.ShloMosaic.StableHlo

variable (m : (ℓ : Loc nD τ sig) → Buf (Elt Ideal) ℓ)

/-- The padded table as the region finds it: the argument table re-typed, padded below with the converted 0. -/
theorem V_table (c : Dev nD) :
    (V m c main_v1 : S1024x512.Idx → EReal)
      = pad S1024x512 ![0, 0] ![24, 0] ![0, 0] (truncf .bf16 (m ((c.tc : Thread nD τ).loc main_arg2)) bitsLt_bf16_f32)
          (sitofp (F := Ideal) .bf16 (constantI S_ 32 0#32)) pads_S1000x512_S1024x512_0240_000 h_S_ := by
  dsimp only [V, V0]
  simp only [hostOps0, hostOps0_1, hostOps0_2, List.flatten_cons, List.flatten_nil, List.append_nil, List.cons_append, List.nil_append]
  after_results
  rfl

/-- The index column as the region finds it: the index vector viewed as a column. -/
theorem V_index (c : Dev nD) :
    (V m c main_v2 : S131072x1.Idx → BitVec 32)
      = shapeCast S131072x1 (m ((c.tc : Thread nD τ).loc main_arg3)) shapeCasts_S131072_S131072x1 := by
  dsimp only [V, V0]
  simp only [hostOps0, hostOps0_1, hostOps0_2, List.flatten_cons, List.flatten_nil, List.append_nil, List.cons_append, List.nil_append]
  after_results
  rfl

/-- Row k < 1000 of the padded table is row k of the argument table. -/
theorem table_apply (c : Dev nD) (k : Fin 1000) (j : Fin 512) :
    (V m c main_v1 : S1024x512.Idx → EReal) (ix2 (⟨k.val, by have := k.isLt; omega⟩ : Fin 1024) j)
      = (m ((c.tc : Thread nD τ).loc main_arg2) : S1000x512.Idx → EReal) (ix2 k j) := by
  rw [V_table]
  exact pad_apply_of_inside ![0, 0] ![24, 0] ![0, 0] _ _ pads_S1000x512_S1024x512_0240_000 h_S_
    (ix2 (⟨k.val, by have := k.isLt; omega⟩ : Fin 1024) j) (ix2 k j) (fun a => by
      match a with
      | ⟨0, _⟩ => show k.val = 0 + k.val * (0 + 1); omega
      | ⟨1, _⟩ => show j.val = 0 + j.val * (0 + 1); omega)

/-- Row r of the index column is entry r of the index vector. -/
theorem index_apply (c : Dev nD) (r : Fin 131072) :
    (V m c main_v2 : S131072x1.Idx → BitVec 32) (ix2 r (0 : Fin 1))
      = (m ((c.tc : Thread nD τ).loc main_arg3) : S131072.Idx → BitVec 32) (ix1 r) := by
  rw [V_index]
  exact shapeCast_apply _ shapeCasts_S131072_S131072x1 (ix2 r (0 : Fin 1)) (ix1 r) (by
    rw [Shape.rowMajor_val_one, Shape.rowMajor_val_two]; show r.val = r.val * 1 + 0; omega)

end Cert.KernelIdeal.Entry

end
-- ==== Proof.Whole.lean ====
/-
  From blocks to the whole output column.

  Grid point t handles rows 1024 t .. 1024 t + 1023: its head, tail and index blocks are those rows of the
  three arrays, its table block is the whole padded table, and what it writes back is those rows of the output
  column. Where every index is in 0 .. 999, row p of the block point t writes back is the score of global row
  1024 t + p; the 128 blocks tile the 131072 rows, so the column ends holding the score of every row.
-/
import proofs.«425691_j19370302505589_1_alg».proof.Proof.Body
import proofs.«425691_j19370302505589_1_alg».proof.Proof.Entry

set_option maxRecDepth 16384

noncomputable section

namespace Cert.KernelIdeal.Whole

open Idealize.ShloMosaic Idealize.ShloMosaic.ValueIdx Idealize.ShloMosaic.TcCoe Cert.KernelIdeal Cert.KernelIdeal.Gen Idealize.SL.Sem
open Idealize.ShloMosaic.Pipeline (Dat Cfg Window)

variable (m : (ℓ : Loc nD τ sig) → Buf (Elt Ideal) ℓ)

/-- The index maps over the grid: the head, tail, index and output windows sit at block row t, the table window
    at block row 0, every window at block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block row is some point's. -/
theorem idx_onto : ∀ q : Fin 128, ∃ t : Fin cfg0.N, win0_4.index t (0 : Fin 2) = q.val ∧ win0_4.index t (1 : Fin 2) = 0 :=
  (by decide +kernel : ∀ q : Fin 128, ∃ t : Fin grid0.N, win0_4.index t (0 : Fin 2) = q.val ∧ win0_4.index t (1 : Fin 2) = 0)

/-- The global row of row p of point t's blocks. -/
def grow (t : Fin cfg0.N) (p : Fin 1024) : Fin 131072 :=
  ⟨t.val * 1024 + p.val, by have := t.isLt; have hN : cfg0.N = 128 := N_0; have := p.isLt; omega⟩

/-- The head block at point t: rows 1024 t .. of the head array. -/
theorem head_blk (c : Dev nD) (t : Fin cfg0.N) (p k : Fin 1024) :
    (iblk m c 0 t : S1024x1024.Idx → EReal) (ix2 p k) = (V m c main_arg0 : S131072x1024.Idx → EReal) (ix2 (grow t p) k) := by
  obtain ⟨e0, e1, -⟩ := idx_facts t
  show V m c main_arg0 (((cfg0.win 0).blk t).view.emb (ix2 p k)) = V m c main_arg0 (ix2 (grow t p) k)
  refine congrArg (V m c main_arg0) (funext fun a => Fin.ext ?_)
  match a with
  | ⟨0, _⟩ => show win0_0.index t (0 : Fin 2) * 1024 + 1 * p.val = t.val * 1024 + p.val; omega
  | ⟨1, _⟩ => show win0_0.index t (1 : Fin 2) * 1024 + 1 * k.val = k.val; omega

/-- The tail block at point t: rows 1024 t .. of the tail array. -/
theorem tail_blk (c : Dev nD) (t : Fin cfg0.N) (p k : Fin 1024) :
    (iblk m c 1 t : S1024x1024.Idx → EReal) (ix2 p k) = (V m c main_arg1 : S131072x1024.Idx → EReal) (ix2 (grow t p) k) := by
  obtain ⟨-, -, e0, e1, -⟩ := idx_facts t
  show V m c main_arg1 (((cfg0.win 1).blk t).view.emb (ix2 p k)) = V m c main_arg1 (ix2 (grow t p) k)
  refine congrArg (V m c main_arg1) (funext fun a => Fin.ext ?_)
  match a with
  | ⟨0, _⟩ => show win0_1.index t (0 : Fin 2) * 1024 + 1 * p.val = t.val * 1024 + p.val; omega
  | ⟨1, _⟩ => show win0_1.index t (1 : Fin 2) * 1024 + 1 * k.val = k.val; omega

/-- The index block at point t: rows 1024 t .. of the index column. -/
theorem index_blk (c : Dev nD) (t : Fin cfg0.N) (p : Fin 1024) :
    (iblk m c 2 t : S1024x1.Idx → BitVec 32) (ix2 p (0 : Fin 1)) = (V m c main_v2 : S131072x1.Idx → BitVec 32) (ix2 (grow t p) (0 : Fin 1)) := by
  obtain ⟨-, -, -, -, e0, e1, -⟩ := idx_facts t
  show V m c main_v2 (((cfg0.win 2).blk t).view.emb (ix2 p (0 : Fin 1))) = V m c main_v2 (ix2 (grow t p) (0 : Fin 1))
  refine congrArg (V m c main_v2) (funext fun a => Fin.ext ?_)
  match a with
  | ⟨0, _⟩ => show win0_2.index t (0 : Fin 2) * 1024 + 1 * p.val = t.val * 1024 + p.val; omega
  | ⟨1, _⟩ => show win0_2.index t (1 : Fin 2) * 1 + 1 * 0 = 0; omega

/-- The table block at any point: the whole padded table. -/
theorem table_blk (c : Dev nD) (t : Fin cfg0.N) (k : Fin 1024) (j : Fin 512) :
    (iblk m c 3 t : S1024x512.Idx → EReal) (ix2 k j) = (V m c main_v1 : S1024x512.Idx → EReal) (ix2 k j) := by
  obtain ⟨-, -, -, -, -, -, e0, e1, -⟩ := idx_facts t
  show V m c main_v1 (((cfg0.win 3).blk t).view.emb (ix2 k j)) = V m c main_v1 (ix2 k j)
  refine congrArg (V m c main_v1) (funext fun a => Fin.ext ?_)
  match a with
  | ⟨0, _⟩ => show win0_3.index t (0 : Fin 2) * 1024 + 1 * k.val = k.val; omega
  | ⟨1, _⟩ => show win0_3.index t (1 : Fin 2) * 512 + 1 * j.val = j.val; omega

/-- THE OUTPUT COLUMN: row r holds the score of triple r. -/
def col (c : Dev nD) : S131072x1.Idx → EReal := fun i =>
  Score.rowScore (m ((c.tc : Thread nD τ).loc main_arg0)) (m ((c.tc : Thread nD τ).loc main_arg1))
    (m ((c.tc : Thread nD τ).loc main_arg2)) (m ((c.tc : Thread nD τ).loc main_arg3)) ⟨(i 0).val, (i 0).isLt⟩

/-- What point t's body leaves at row p of its output block, where the indices are in range: the score of global
    row 1024 t + p. -/
theorem out_row (c : Dev nD)
    (hdom : ∀ r : Fin 131072, 0 ≤ ((m ((c.tc : Thread nD τ).loc main_arg3) : S131072.Idx → BitVec 32) (ix1 r)).toInt
      ∧ ((m ((c.tc : Thread nD τ).loc main_arg3) : S131072.Idx → BitVec 32) (ix1 r)).toInt < 1000)
    (t : Fin cfg0.N) (p : Fin 1024) :
    out0_4 (F := Ideal) (iblk m c 0 t) (iblk m c 1 t) (iblk m c 2 t) (iblk m c 3 t) (ix2 p (0 : Fin 1))
      = Score.rowScore (m ((c.tc : Thread nD τ).loc main_arg0)) (m ((c.tc : Thread nD τ).loc main_arg1))
          (m ((c.tc : Thread nD τ).loc main_arg2)) (m ((c.tc : Thread nD τ).loc main_arg3)) (grow t p) := by
  have hw := index_blk m c t p
  rw [Entry.index_apply] at hw
  obtain ⟨h0, h1⟩ := hdom (grow t p)
  have hpos := Score.word_pos _ h0 h1
  refine (Body.out_apply (iblk m c 0 t) (iblk m c 1 t) (iblk m c 2 t) (iblk m c 3 t) p
    ⟨(Score.pos ((m ((c.tc : Thread nD τ).loc main_arg3) : S131072.Idx → BitVec 32) (ix1 (grow t p)))).val, by
      have := (Score.pos ((m ((c.tc : Thread nD τ).loc main_arg3) : S131072.Idx → BitVec 32) (ix1 (grow t p)))).isLt; omega⟩
    (hw.trans hpos)).trans ?_
  unfold Score.rowScore
  congr 1
  · funext k; rw [head_blk, V_main_arg0]
  · funext k; rw [tail_blk, V_main_arg1]
  · funext j; rw [table_blk]; exact Entry.table_apply m c _ j

/-- WHAT POINT t WRITES BACK is block t of the output column, where the indices are in range. -/
theorem flushed_eq (c : Dev nD)
    (hdom : ∀ r : Fin 131072, 0 ≤ ((m ((c.tc : Thread nD τ).loc main_arg3) : S131072.Idx → BitVec 32) (ix1 r)).toInt
      ∧ ((m ((c.tc : Thread nD τ).loc main_arg3) : S131072.Idx → BitVec 32) (ix1 r)).toInt < 1000)
    (t : Fin cfg0.N) :
    (dats m 0 c).flushed 4 t = ((cfg0.win 4).blk t).view.read (Elt Ideal) (col m c) := by
  show (cfg0.win 4).cut (grid0.coords t) ((dats m 0 c).after 4 t) = _
  rw [after0_4]
  obtain ⟨-, -, -, -, -, -, -, -, e0, e1⟩ := idx_facts t
  funext y
  revert y
  show ∀ y : S1024x1.Idx, out0_4 (F := Ideal) (iblk m c 0 t) (iblk m c 1 t) (iblk m c 2 t) (iblk m c 3 t) y
      = col m c (((cfg0.win 4).blk t).view.emb y)
  intro y
  obtain ⟨p, q, rfl⟩ : ∃ (p : Fin 1024) (q : Fin 1), y = ix2 p q := ⟨y 0, y 1, eq_ix2 y⟩
  obtain rfl : q = 0 := Subsingleton.elim _ _
  rw [out_row m c hdom t p]
  unfold col
  refine congrArg _ (Fin.ext ?_)
  show t.val * 1024 + p.val = win0_4.index t (0 : Fin 2) * 1024 + 1 * p.val
  omega

/-- An index of the column is in point t's block iff each coordinate is in the block's range on its axis. -/
theorem mem_blk (t : Fin cfg0.N) (i : S131072x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v3).slice (win0_4.rect t)).set ↔ _
  rw [View.set_slice_whole, Rect.mem_set_unit]
  exact Iff.rfl

/-- The 128 blocks tile the column: row r is in the block of point r / 1024. -/
theorem cover (i : S131072x1.Idx) :
    ∃ t : Fin cfg0.N, (cfg0.win 4).flush t = true ∧ i ∈ ((cfg0.win 4).blk t).view.set := by
  have hi0 : (i 0).val < 131072 := (i 0).isLt
  have hi1 : (i 1).val < 1 := (i 1).isLt
  obtain ⟨t, q0, q1⟩ := idx_onto ⟨(i 0).val / 1024, by omega⟩
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    have q0' : win0_4.index t (0 : Fin 2) = (i 0).val / 1024 := q0
    omega
  | ⟨1, _⟩ =>
    show win0_4.index t (1 : Fin 2) * 1 ≤ (i 1).val ∧ (i 1).val < win0_4.index t (1 : Fin 2) * 1 + 1
    omega

/-- THE OUTPUT COLUMN after the run, where the indices are in range: the score of every row. -/
theorem final (c : Dev nD)
    (hdom : ∀ r : Fin 131072, 0 ≤ ((m ((c.tc : Thread nD τ).loc main_arg3) : S131072.Idx → BitVec 32) (ix1 r)).toInt
      ∧ ((m ((c.tc : Thread nD τ).loc main_arg3) : S131072.Idx → BitVec 32) (ix1 r)).toInt < 1000) :
    (dats m 0 c).arrAt 4 cfg0.N = col m c :=
  (dats m 0 c).arrAt_eq_of_cover 4 (col m c) (fun t _ => flushed_eq m c hdom t) cover

end Cert.KernelIdeal.Whole

end
-- ==== Proof.KernelRun.lean ====
/-
  The kernel program's run, with its result named.

  After the region the host views the output column as a vector: entry r of the result is row r of the column.
  So, where every index is in 0 .. 999, every weakly fair execution ends with the result holding the score of
  every triple and the four arguments unchanged.
-/
import proofs.«425691_j19370302505589_1_alg».proof.Proof.Whole

set_option maxRecDepth 16384

noncomputable section

namespace Cert.KernelIdeal.KernelRun

open Idealize.ShloMosaic Idealize.ShloMosaic.ValueIdx Idealize.ShloMosaic.TcCoe Cert.KernelIdeal Cert.KernelIdeal.Gen Idealize.SL.Sem
open Idealize.ShloMosaic.StableHlo
open Idealize.ShloMosaic.Pipeline (Dat Cfg Window)

variable (m : (ℓ : Loc nD τ sig) → Buf (Elt Ideal) ℓ) (ρ : Dev nD → PrngReg)

/-- THE RESULT: entry r is the score of triple r. -/
def result (c : Dev nD) : S131072.Idx → EReal := fun i =>
  Score.rowScore (m ((c.tc : Thread nD τ).loc main_arg0)) (m ((c.tc : Thread nD τ).loc main_arg1))
    (m ((c.tc : Thread nD τ).loc main_arg2)) (m ((c.tc : Thread nD τ).loc main_arg3)) ⟨(i 0).val, (i 0).isLt⟩

/-- What the host operation after the region leaves in the result buffer, where the indices are in range. -/
theorem tail_eq (c : Dev nD)
    (hdom : ∀ r : Fin 131072, 0 ≤ ((m ((c.tc : Thread nD τ).loc main_arg3) : S131072.Idx → BitVec 32) (ix1 r)).toInt
      ∧ ((m ((c.tc : Thread nD τ).loc main_arg3) : S131072.Idx → BitVec 32) (ix1 r)).toInt < 1000) :
    (Pipeline.afterTail₀ cfgs (dats m) 0 (V0 m) [hostOps1] c main_v4 : S131072.Idx → EReal) = result m c := by
  unfold Pipeline.afterTail₀
  show StableHlo.after hostOps1 _ (Proc.devRef .tc main_v4) = _
  after_results
  show shapeCast S131072 (Pipeline.withArrays (cfgs 0).spec c (V0 m c) (fun w => (dats m 0 c).arrAt w (cfgs 0).N)
    (Proc.devRef .tc main_v3)) shapeCasts_S131072x1_S131072 = _
  rw [show Pipeline.withArrays (cfgs 0).spec c (V0 m c) (fun w => (dats m 0 c).arrAt w (cfgs 0).N) (Proc.devRef .tc main_v3)
      = Whole.col m c from (Pipeline.withArrays_arr spec0 launch0.win.arr_inj c _ _ 4).trans (Whole.final m c hdom)]
  funext i
  obtain ⟨r, rfl⟩ : ∃ r : Fin 131072, i = ix1 r := ⟨i 0, eq_ix1 i⟩
  refine (shapeCast_apply (Whole.col m c) shapeCasts_S131072x1_S131072 (ix1 r) (ix2 r (0 : Fin 1)) (by
    rw [Shape.rowMajor_val_one, Shape.rowMajor_val_two]; show r.val * 1 + 0 = r.val; omega)).trans ?_
  rfl

/-- THE RUN, where the indices are in range on every core: the result at the scores, the arguments unchanged. -/
theorem run
    (hdom : ∀ (c : Dev nD) (r : Fin 131072), 0 ≤ ((m ((c.tc : Thread nD τ).loc main_arg3) : S131072.Idx → BitVec 32) (ix1 r)).toInt
      ∧ ((m ((c.tc : Thread nD τ).loc main_arg3) : S131072.Idx → BitVec 32) (ix1 r)).toInt < 1000) :
    θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_eq m c (hdom c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelRun

end
-- ==== Proof.LibGatherRows.lean ====
/-
  The host's gather that selects ROWS of a matrix by a column of positions, read at an index.
-/
import Idealize.ShloMosaic.PureOps
import Idealize.ShloMosaic.Lib.ValueIdx

set_option maxRecDepth 16384

noncomputable section

namespace Cert.LibGatherRows

open Idealize.ShloMosaic Idealize.ShloMosaic.ValueIdx

/-- An entry of a one-element list is that element, whatever the position. -/
private theorem getElem_of_eq_singleton {β : Type} {l : List β} {x : β} (hl : l = [x]) (k : Nat) (hk : k < l.length) :
    l[k]'hk = x := by
  subst hl
  have hk0 : k = 0 := by simpa using hk
  subst hk0
  rfl

/-- SELECTING ROWS. A gather over an [N, C] matrix whose start indices are an [E, 1] column of positions, the
    columns kept whole (axis 1 an offset axis of slice size C) and axis 0 collapsed and start-indexed: entry (e, j)
    is the matrix at the row position e's start index names, read signed and clamped into [0, N - 1], and column j. -/
theorem gather_rows {α : Type} {N C E w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (j : Fin C) (hN : 0 < N) :
    Host.gather d x idx (ix2 e j)
      = x (ix2 ⟨min (idx (ix2 e (0 : Fin 1))).toInt.toNat (N - 1), by omega⟩ j) := by
  -- the axes kept on each side: the operand's one offset axis is 1, the result's one batch axis is 0
  have hsK : d.sKept = [1] := by
    show (List.finRange 2).filter (· ∉ d.collapsedSliceDims ++ d.operandBatchingDims) = [1]
    rw [hcoll, hob]; rfl
  have hbD : d.batchDims = [0] := by
    show (List.finRange 2).filter (· ∉ d.offsetDims) = [0]
    rw [hoff]; rfl
  have hlen : d.startIndexMap.length = 1 := by rw [hsim]; rfl
  -- the start-index entry result position (e, j) reads is row e of the column of positions
  have hsi : ∀ c, d.siIdx (ix2 e j) c = ix2 e (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbD]
      rfl
    | ⟨1, _⟩ =>
      unfold GatherDims.siIdx
      rw [dif_pos (by rw [hivd])]
      apply Fin.ext
      show c.val = 0
      have := c.isLt
      omega
  unfold Host.gather
  congr 1
  funext ax
  apply Fin.ext
  match ax with
  | ⟨0, h0⟩ =>
    -- axis 0, collapsed and start-indexed: the clamped start index alone
    have hb : (⟨0, h0⟩ : Fin 2) ∉ d.operandBatchingDims := by rw [hob]; exact List.not_mem_nil
    have hk : (⟨0, h0⟩ : Fin 2) ∉ d.sKept := by
      rw [hsK, List.mem_singleton]; intro e; exact Nat.zero_ne_one (congrArg Fin.val e)
    have hm : (⟨0, h0⟩ : Fin 2) ∈ d.startIndexMap := by rw [hsim]; exact List.mem_singleton.mpr rfl
    have hsl : d.sliceSizes ⟨0, h0⟩ = 1 := d.slice_collapsed _ (by rw [hcoll]; exact List.mem_singleton.mpr rfl)
    simp only [GatherDims.operandIdx, GatherDims.batchCoord_eq_zero _ _ _ hb, GatherDims.offCoord_eq_zero _ _ _ hk,
      Nat.add_zero, GatherDims.start, dif_pos hm]
    rw [hsi, hsl]
    rfl
  | ⟨1, h1⟩ =>
    -- axis 1, the offset axis: no start index, no batch coordinate, the result's column
    have hb : (⟨1, h1⟩ : Fin 2) ∉ d.operandBatchingDims := by rw [hob]; exact List.not_mem_nil
    have hm : (⟨1, h1⟩ : Fin 2) ∉ d.startIndexMap := by
      rw [hsim, List.mem_singleton]; intro e; exact Nat.one_ne_zero (congrArg Fin.val e)
    have hk : (⟨1, h1⟩ : Fin 2) ∈ d.sKept := by rw [hsK]; exact List.mem_singleton.mpr rfl
    simp only [GatherDims.operandIdx, GatherDims.batchCoord_eq_zero _ _ _ hb, GatherDims.start, dif_neg hm,
      GatherDims.offCoord, dif_pos hk, Nat.zero_add, Nat.add_zero]
    rw [getElem_of_eq_singleton hoff]
    rfl

end Cert.LibGatherRows

end
-- ==== Proof.Ref.lean ====
/-
  The reference program's result, read at an index.

  The reference gathers the relation rows by index (an index below 0 first moved up by 1000, then the row read
  with the index clamped into 0 .. 999), splits the head and tail rows into halves, normalises the four halves,
  combines them with the gathered row into the difference vector and returns minus its length. Where every index
  is in 0 .. 999 the move and the clamp do nothing, and entry r of the result is the score of triple r.
-/
import proofs.«425691_j19370302505589_1_alg».proof.Proof.Gen.ReferenceIdeal.Read
import proofs.«425691_j19370302505589_1_alg».proof.Proof.Score
import proofs.«425691_j19370302505589_1_alg».proof.Proof.LibGatherRows
import Idealize.ShloMosaic.PureOps.Ideal.Laws
import Idealize.ShloMosaic.Lib.ValueIdx
import Idealize.ShloMosaic.Lib.Affine

set_option maxRecDepth 16384

noncomputable section

namespace Cert.ReferenceIdeal.RefValue

open Idealize.ShloMosaic Idealize.ShloMosaic.ValueIdx Cert.ReferenceIdeal Cert.ReferenceIdeal.Gen Idealize.SL.Sem
open scoped BigOperators

/-- A half row over its clamped length, the sum of squares started from the zero word. -/
theorem unit_eq (v : Fin 512 → EReal) (j : Fin 512) :
    Ideal.div (v j) (max (Ideal.sqrt (Ideal.ofBits .f32 0x00000000#32 + ∑ k : Fin 512, v k * v k)) Score.tiny)
      = Score.unit v j := by
  rw [Ideal.ofBits_zero_f32, zero_add]
  rfl

/-- The main half of the head array, normalised: entry (r, j). -/
theorem head_main (x : (⟨S131072x1024, .f32⟩ : BufTy).Contents (Elt Ideal)) (r : Fin 131072) (j : Fin 512) :
    Read.val_main_v18 (F := Ideal) x (ix2 r j) = Score.unit (Score.lo fun k => x (ix2 r k)) j := by
  have e1 : Read.idx_main_v17 (ix2 r j) = ix2 r (0 : Fin 1) :=
    funext fun a => Fin.ext (by match a with | ⟨0, _⟩ => rfl | ⟨1, _⟩ => rfl)
  have e2 : Read.idx_main_v13 (ix2 r (0 : Fin 1)) = ix1 r :=
    funext fun a => Fin.ext (by match a with | ⟨0, _⟩ => rfl)
  have e3 : ∀ k : Fin 512, Read.idx_main_v12 (ix1 r) k = ix2 r k := fun k =>
    funext fun a => Fin.ext (by match a with | ⟨0, _⟩ => rfl | ⟨1, _⟩ => rfl)
  have e4 : ∀ k : Fin 512, Read.val_main_v7 (F := Ideal) x (ix2 r k) = Score.lo (fun k => x (ix2 r k)) k := fun k => by
    rw [Read.val_main_v7_apply]
    exact congrArg x (funext fun a => Fin.ext (by match a with | ⟨0, _⟩ => rfl | ⟨1, _⟩ => rfl))
  rw [Read.val_main_v18_apply, Read.val_main_v17_apply, e1, Read.val_main_v16_apply, Read.val_main_v14_apply,
    Read.val_main_v13_apply, e2, Read.val_main_v12_apply, Read.val_main_v15_apply, e4 j]
  simp only [e3, Read.val_main_v11_apply, e4]
  exact unit_eq _ j

/-- The main half of the tail array, normalised: entry (r, j). -/
theorem tail_main (x : (⟨S131072x1024, .f32⟩ : BufTy).Contents (Elt Ideal)) (r : Fin 131072) (j : Fin 512) :
    Read.val_main_v26 (F := Ideal) x (ix2 r j) = Score.unit (Score.lo fun k => x (ix2 r k)) j := by
  have e1 : Read.idx_main_v25 (ix2 r j) = ix2 r (0 : Fin 1) :=
    funext fun a => Fin.ext (by match a with | ⟨0, _⟩ => rfl | ⟨1, _⟩ => rfl)
  have e2 : Read.idx_main_v21 (ix2 r (0 : Fin 1)) = ix1 r :=
    funext fun a => Fin.ext (by match a with | ⟨0, _⟩ => rfl)
  have e3 : ∀ k : Fin 512, Read.idx_main_v20 (ix1 r) k = ix2 r k := fun k =>
    funext fun a => Fin.ext (by match a with | ⟨0, _⟩ => rfl | ⟨1, _⟩ => rfl)
  have e4 : ∀ k : Fin 512, Read.val_main_v9 (F := Ideal) x (ix2 r k) = Score.lo (fun k => x (ix2 r k)) k := fun k => by
    rw [Read.val_main_v9_apply]
    exact congrArg x (funext fun a => Fin.ext (by match a with | ⟨0, _⟩ => rfl | ⟨1, _⟩ => rfl))
  rw [Read.val_main_v26_apply, Read.val_main_v25_apply, e1, Read.val_main_v24_apply, Read.val_main_v22_apply,
    Read.val_main_v21_apply, e2, Read.val_main_v20_apply, Read.val_main_v23_apply, e4 j]
  simp only [e3, Read.val_main_v19_apply, e4]
  exact unit_eq _ j

/-- The auxiliary half of the head array, normalised: entry (r, j). -/
theorem head_aux (x : (⟨S131072x1024, .f32⟩ : BufTy).Contents (Elt Ideal)) (r : Fin 131072) (j : Fin 512) :
    Read.val_main_v34 (F := Ideal) x (ix2 r j) = Score.unit (Score.hi fun k => x (ix2 r k)) j := by
  have e1 : Read.idx_main_v33 (ix2 r j) = ix2 r (0 : Fin 1) :=
    funext fun a => Fin.ext (by match a with | ⟨0, _⟩ => rfl | ⟨1, _⟩ => rfl)
  have e2 : Read.idx_main_v29 (ix2 r (0 : Fin 1)) = ix1 r :=
    funext fun a => Fin.ext (by match a with | ⟨0, _⟩ => rfl)
  have e3 : ∀ k : Fin 512, Read.idx_main_v28 (ix1 r) k = ix2 r k := fun k =>
    funext fun a => Fin.ext (by match a with | ⟨0, _⟩ => rfl | ⟨1, _⟩ => rfl)
  have e4 : ∀ k : Fin 512, Read.val_main_v8 (F := Ideal) x (ix2 r k) = Score.hi (fun k => x (ix2 r k)) k := fun k => by
    rw [Read.val_main_v8_apply]
    exact congrArg x (funext fun a => Fin.ext (by match a with | ⟨0, _⟩ => rfl | ⟨1, _⟩ => rfl))
  rw [Read.val_main_v34_apply, Read.val_main_v33_apply, e1, Read.val_main_v32_apply, Read.val_main_v30_apply,
    Read.val_main_v29_apply, e2, Read.val_main_v28_apply, Read.val_main_v31_apply, e4 j]
  simp only [e3, Read.val_main_v27_apply, e4]
  exact unit_eq _ j

/-- The auxiliary half of the tail array, normalised: entry (r, j). -/
theorem tail_aux (x : (⟨S131072x1024, .f32⟩ : BufTy).Contents (Elt Ideal)) (r : Fin 131072) (j : Fin 512) :
    Read.val_main_v42 (F := Ideal) x (ix2 r j) = Score.unit (Score.hi fun k => x (ix2 r k)) j := by
  have e1 : Read.idx_main_v41 (ix2 r j) = ix2 r (0 : Fin 1) :=
    funext fun a => Fin.ext (by match a with | ⟨0, _⟩ => rfl | ⟨1, _⟩ => rfl)
  have e2 : Read.idx_main_v37 (ix2 r (0 : Fin 1)) = ix1 r :=
    funext fun a => Fin.ext (by match a with | ⟨0, _⟩ => rfl)
  have e3 : ∀ k : Fin 512, Read.idx_main_v36 (ix1 r) k = ix2 r k := fun k =>
    funext fun a => Fin.ext (by match a with | ⟨0, _⟩ => rfl | ⟨1, _⟩ => rfl)
  have e4 : ∀ k : Fin 512, Read.val_main_v10 (F := Ideal) x (ix2 r k) = Score.hi (fun k => x (ix2 r k)) k := fun k => by
    rw [Read.val_main_v10_apply]
    exact congrArg x (funext fun a => Fin.ext (by match a with | ⟨0, _⟩ => rfl | ⟨1, _⟩ => rfl))
  rw [Read.val_main_v42_apply, Read.val_main_v41_apply, e1, Read.val_main_v40_apply, Read.val_main_v38_apply,
    Read.val_main_v37_apply, e2, Read.val_main_v36_apply, Read.val_main_v39_apply, e4 j]
  simp only [e3, Read.val_main_v35_apply, e4]
  exact unit_eq _ j

/-- The gathered relation row, entry (r, j), where index r is not negative: the table's row at the position the
    index names (the move up by 1000 does not happen, and the clamp into 0 .. 999 is the position's). -/
theorem rel_row (x2 : (⟨S1000x512, .f32⟩ : BufTy).Contents (Elt Ideal)) (x3 : (⟨S131072, .i32⟩ : BufTy).Contents (Elt Ideal))
    (r : Fin 131072) (j : Fin 512) (h0 : 0 ≤ ((x3 : S131072.Idx → BitVec 32) (ix1 r)).toInt) :
    Read.val_main_v6 (F := Ideal) x2 x3 (ix2 r j) = (x2 : S1000x512.Idx → EReal) (ix2 (Score.pos ((x3 : S131072.Idx → BitVec 32) (ix1 r))) j) := by
  unfold Read.val_main_v6
  refine (Cert.LibGatherRows.gather_rows gather_S1000x512_S131072x1_S131072x512_1_0_n_n_0_1_1512 rfl rfl rfl rfl rfl rfl
    x2 (Read.val_main_v5 (F := Ideal) x3) r j (by decide)).trans ?_
  have e5 : Read.idx_main_v5 (ix2 r (0 : Fin 1)) = ix1 r :=
    funext fun a => Fin.ext (by match a with | ⟨0, _⟩ => rfl)
  have hz : (0#32 : BitVec 32).toInt = 0 := by decide
  have hc : IntOp.cmpi .slt ((x3 : S131072.Idx → BitVec 32) (ix1 r)) 0#32 = 0#1 :=
    eq_zero_of_ne_one fun h => by
      have := IntOp.cmpi_slt.1 h
      rw [hz] at this
      omega
  have ew : Read.val_main_v5 (F := Ideal) x3 (ix2 r (0 : Fin 1)) = (x3 : S131072.Idx → BitVec 32) (ix1 r) := by
    rw [Read.val_main_v5_apply, e5, Read.val_main_v4_apply, Read.val_main_v1_apply, Read.val_main_v0_apply,
      Read.val_main_c_apply, hc, select_zero]
  refine congrArg (fun q : Fin 1000 => (x2 : S1000x512.Idx → EReal) (ix2 q j)) (Fin.ext ?_)
  show min (Read.val_main_v5 (F := Ideal) x3 (ix2 r (0 : Fin 1))).toInt.toNat (1000 - 1)
    = min ((x3 : S131072.Idx → BitVec 32) (ix1 r)).toInt.toNat 999
  rw [ew]

/-- THE REFERENCE'S RESULT, where every index is in 0 .. 999: entry r is the score of triple r. -/
theorem result_eq (x0 x1 : (⟨S131072x1024, .f32⟩ : BufTy).Contents (Elt Ideal)) (x2 : (⟨S1000x512, .f32⟩ : BufTy).Contents (Elt Ideal))
    (x3 : (⟨S131072, .i32⟩ : BufTy).Contents (Elt Ideal))
    (hdom : ∀ r : Fin 131072, 0 ≤ ((x3 : S131072.Idx → BitVec 32) (ix1 r)).toInt ∧ ((x3 : S131072.Idx → BitVec 32) (ix1 r)).toInt < 1000) :
    Read.val_main_v54 (F := Ideal) x0 x1 x2 x3
      = fun i : S131072.Idx => Score.rowScore x0 x1 x2 x3 ⟨(i 0).val, (i 0).isLt⟩ := by
  funext i
  obtain ⟨r, rfl⟩ : ∃ r : Fin 131072, i = ix1 r := ⟨i 0, eq_ix1 i⟩
  have e52 : ∀ k : Fin 512, Read.idx_main_v52 (ix1 r) k = ix2 r k := fun k =>
    funext fun a => Fin.ext (by match a with | ⟨0, _⟩ => rfl | ⟨1, _⟩ => rfl)
  have hrel : ∀ k : Fin 512, Read.val_main_v6 (F := Ideal) x2 x3 (ix2 r k)
      = (x2 : S1000x512.Idx → EReal) (ix2 (Score.pos ((x3 : S131072.Idx → BitVec 32) (ix1 r))) k) :=
    fun k => rel_row x2 x3 r k (hdom r).1
  rw [Read.val_main_v54_apply, Read.val_main_v53_apply, Read.val_main_v52_apply]
  simp only [e52, Read.val_main_v51_apply, Read.val_main_v50_apply, Read.val_main_v46_apply, Read.val_main_v45_apply,
    Read.val_main_v44_apply, Read.val_main_v49_apply, Read.val_main_v48_apply, Read.val_main_v43_apply, Read.val_main_v47_apply,
    Read.val_main_cst_8_apply, Read.val_main_cst_9_apply, Read.val_main_cst_10_apply, head_main, tail_main, head_aux, tail_aux,
    hrel, Ideal.hostNegf_def, Ideal.negf_def, Ideal.hostUnary_sqrt_def, Ideal.mulf_def, Ideal.addf_def, Ideal.subf_def,
    Ideal.ofBits_def, Ideal.ofBits_zero_f32, zero_add]
  rfl

end Cert.ReferenceIdeal.RefValue

end
-- ==== Proof.lean ====
/-
  The scores of 131072 (head, relation, tail) triples, computed by a kernel against their plain definition.

  For triple r the head row and the tail row (1024 numbers each) split into a main and an auxiliary half; each
  half is divided by its Euclidean length, clamped below by 1e-12; with the relation row rel (512 numbers) the
  difference vector is d = hm * (ta + 1) + rel - tm * (ha + 1) and the score is minus the length of d.

  The two programs differ in how they find rel. The reference reads row relation_id[r] of the 1000-row table
  (a negative index first moved up by 1000, the read then clamped into the table). The kernel pads the table
  with 24 zero rows and multiplies it by the one-hot row of relation_id[r] over the 1024 positions: a sum of
  0 * (a table entry) over every position but one, plus 1 * (the entry at the index). Over the extended reals 0
  annihilates and 1 is neutral whatever the other factor, so the product is the table row at the index when the
  index is one of the positions, and the padded rows are never read when it is below 1000. For an index outside
  0 .. 999 the two programs read different rows (the kernel a zero row, the reference a clamped or wrapped one),
  so the statement carries the condition that every index is in 0 .. 999, and the proof decodes it from the
  precondition. Everything else is the same arithmetic on both sides, entry by entry: no law of the extended
  reals beyond 0 * x = 0, 1 * x = x and 0 + x = x is used, and the finiteness of the inputs is never opened.

  The kernel's result: each grid point's block of 1024 rows holds the scores of its rows (Body, Whole), the 128
  blocks tile the output column, and the host views the column as the result vector (KernelRun). The reference's
  result is read stage by stage (Ref). The three frames are the generated ones; nothing was rewritten when the
  kernel was idealized, so that conjunct is trivial.
-/
import proofs.«425691_j19370302505589_1_alg».proof.Defs
import proofs.«425691_j19370302505589_1_alg».proof.Proof.Gen.Kernel
import proofs.«425691_j19370302505589_1_alg».proof.Proof.Gen.Kernel.Skeleton
import proofs.«425691_j19370302505589_1_alg».proof.Proof.Gen.Kernel.Launch
import proofs.«425691_j19370302505589_1_alg».proof.Proof.Gen.Kernel.Points
import proofs.«425691_j19370302505589_1_alg».proof.Proof.Gen.Kernel.Frame
import proofs.«425691_j19370302505589_1_alg».proof.Proof.Gen.KernelIdeal
import proofs.«425691_j19370302505589_1_alg».proof.Proof.Gen.KernelIdeal.Skeleton
import proofs.«425691_j19370302505589_1_alg».proof.Proof.Gen.KernelIdeal.Launch
import proofs.«425691_j19370302505589_1_alg».proof.Proof.Gen.KernelIdeal.Points
import proofs.«425691_j19370302505589_1_alg».proof.Proof.Gen.KernelIdeal.Frame
import proofs.«425691_j19370302505589_1_alg».proof.Proof.Gen.ReferenceIdeal
import proofs.«425691_j19370302505589_1_alg».proof.Proof.Gen.Pre_finite_inputs
import proofs.«425691_j19370302505589_1_alg».proof.Proof.Gen.ReferenceIdeal.Run
import proofs.«425691_j19370302505589_1_alg».proof.Proof.Gen.ReferenceIdeal.Read
import proofs.«425691_j19370302505589_1_alg».proof.Proof.Domain
import proofs.«425691_j19370302505589_1_alg».proof.Proof.KernelRun
import proofs.«425691_j19370302505589_1_alg».proof.Proof.Ref
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the scores of the triples, where the precondition puts every index in 0 .. 999. -/
theorem algebraic : Cert.algebraic_KernelIdeal_ReferenceIdeal := by
  intro m ρ m' ρ' hpre hagree
  have hdom : ∀ (c : Dev Cert.KernelIdeal.nD) (r : Fin 131072),
      0 ≤ ((m ((c.tc : Thread Cert.KernelIdeal.nD Cert.KernelIdeal.τ).loc Cert.KernelIdeal.main_arg3)
          : Cert.KernelIdeal.S131072.Idx → BitVec 32) (ix1 r)).toInt
      ∧ ((m ((c.tc : Thread Cert.KernelIdeal.nD Cert.KernelIdeal.τ).loc Cert.KernelIdeal.main_arg3)
          : Cert.KernelIdeal.S131072.Idx → BitVec 32) (ix1 r)).toInt < 1000 :=
    fun c r => Cert.Domain.index_range _ _ _ _ (hpre c) r
  refine ⟨fun c => Cert.KernelIdeal.KernelRun.result m c, Cert.KernelIdeal.KernelRun.run m ρ hdom, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2]
  exact Cert.ReferenceIdeal.RefValue.result_eq _ _ _ _ (hdom c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
